-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg13 : FVec F S1x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S1x128 .f32 := Host.absf main_arg13
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  main_v58

def fn_part2 {F : FTy → Type} [FloatOps F] (main_arg9 : FVec F S128x128 .f32) (main_arg10 : FVec F S1x128 .f32) (main_arg11 : FVec F S128x128 .f32) (main_arg12 : FVec F S128x128 .f32) (main_arg13 : FVec F S1x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S128x128 .f32) (main_arg7 : FVec F S1x128 .f32) (main_arg8 : FVec F S128x128 .f32) (main_arg9 : FVec F S128x128 .f32) (main_arg10 : FVec F S1x128 .f32) (main_arg11 : FVec F S128x128 .f32) (main_arg12 : FVec F S128x128 .f32) (main_arg13 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : FVec F S100000x128 .f32) (main_arg2 : FVec F S100000x128 .f32) (main_arg3 : IVec S1600000 32) (main_arg4 : IVec S1600000 32) (main_arg5 : FVec F S128x128 .f32) (main_arg6 : FVec F S128x128 .f32) (main_arg7 : FVec F S1x128 .f32) (main_arg8 : FVec F S128x128 .f32) (main_arg9 : FVec F S128x128 .f32) (main_arg10 : FVec F S1x128 .f32) (main_arg11 : FVec F S128x128 .f32) (main_arg12 : FVec F S128x128 .f32) (main_arg13 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S4000x128 : Shape := ⟨2, ![4000, 128]⟩

abbrev nBuf : Space → Nat
  | .hbm => 43
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  broadcasts_S1x128_S2000x128 : S1x128.Broadcasts S2000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1600000x128.size a
  hwx1_0 : ∀ i : grid1.Coords, EltTy.bits .f32 = 32 ∨ (Rect.block (s := S1600000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S1600000x128.size a
  hwx1_1 : ∀ i : grid1.Coords, EltTy.bits .f32 = 32 ∨ (Rect.block (s := S1600000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S1600000x128.size a
  hwx1_5 : ∀ i : grid1.Coords, EltTy.bits .f32 = 32 ∨ (Rect.block (s := S1600000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S1600000x128, .f32⟩
  | .hbm, ⟨70, _⟩ => ⟨S1600000x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S1600000x128_S128x128_S1600000x128_1_0_0_1_n_n_wf : DotDims.WF S1600000x128 S128x128 S1600000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.GatedRows.lean ====
/-
  Gated dense updates, read one row at a time at the ideal values.

  Each of the three stages of the update forms, for every row `n` and column `h`, the pre-activation

      a(n, h) = (Σ_k x(n, k) · W(k, h) + Σ_k y(n, k) · U(k, h)) + b(0, h)

  of two row-major arrays `x`, `y`, two weight matrices and a bias row, and applies a pointwise gate to it:
  the logistic function (the update gate), the logistic function times the row's own entry (the reset gate
  applied to the gathered state), or the convex mix `(1 - z) · s + z · tanh a` (the new state).  Entry `(n, h)`
  of each result depends on row `n` of the row-major operands only, so a block of rows of the result is the same
  function of the same block of rows of the operands.

  This file states the pre-activation once (`pre`), reads it out of both spellings — a kernel's two matrix
  products of narrowed operands into zero accumulators, summed, plus the bias row broadcast down the rows; the
  host's two `dot_general`s, summed, plus the bias row broadcast in both axes — and reads the three gates out of
  both spellings.  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«156432_j30382598652169_1_alg».proof.Proof.LibRowOps

noncomputable section

open scoped BigOperators

namespace GatedRows

open Idealize.ShloMosaic Idealize.ShloMosaic.ValueIdx RowOps

variable {R K H : ℕ}

/-- The pre-activation at row `n`, column `h`: the row of `x` against column `h` of `W`, plus the row of `y`
    against column `h` of `U`, plus the bias. -/
def pre (x y : (⟨2, ![R, K]⟩ : Shape).Idx → EReal) (W U : (⟨2, ![K, H]⟩ : Shape).Idx → EReal)
    (b : (⟨2, ![1, H]⟩ : Shape).Idx → EReal) (n : Fin R) (h : Fin H) : EReal :=
  ((∑ k : Fin K, x (ix2 n k) * W (ix2 k h)) + (∑ k : Fin K, y (ix2 n k) * U (ix2 k h))) + b (ix2 (0 : Fin 1) h)

/-- The pre-activation at `(n, h)` reads row `n` of the row-major operands, column `h` of the weights and entry
    `h` of the bias, and nothing else. -/
theorem pre_congr {R' : ℕ} (x y : (⟨2, ![R, K]⟩ : Shape).Idx → EReal) (x' y' : (⟨2, ![R', K]⟩ : Shape).Idx → EReal)
    (W U W' U' : (⟨2, ![K, H]⟩ : Shape).Idx → EReal) (b b' : (⟨2, ![1, H]⟩ : Shape).Idx → EReal)
    (n : Fin R) (n' : Fin R') (h : Fin H)
    (hx : ∀ k, x (ix2 n k) = x' (ix2 n' k)) (hy : ∀ k, y (ix2 n k) = y' (ix2 n' k))
    (hW : ∀ k, W (ix2 k h) = W' (ix2 k h)) (hU : ∀ k, U (ix2 k h) = U' (ix2 k h))
    (hb : b (ix2 (0 : Fin 1) h) = b' (ix2 (0 : Fin 1) h)) :
    pre x y W U b n h = pre x' y' W' U' b' n' h := by
  unfold pre
  simp only [hx, hy, hW, hU, hb]

/-- The one, as both programs spell it. -/
abbrev one : EReal := Ideal.ofBits .f32 0x3F800000#32

/-- The new state's mix at one entry: `(1 - z) · s + z · tanh a`. -/
def mix (z s a : EReal) : EReal := (one - z) * s + z * Ideal.tanh a

/-! ## The pre-activation in both spellings -/

/-- The kernel's spelling: two products of narrowed operands into zero accumulators, summed, plus the bias row
    broadcast down the rows. -/
theorem pre_kernel_apply (d : DotDims ⟨2, ![R, K]⟩ ⟨2, ![K, H]⟩ ⟨2, ![R, H]⟩) (hd : d = DotDims.plain R K H)
    (x y : FVec Ideal ⟨2, ![R, K]⟩ .f32) (W U : FVec Ideal ⟨2, ![K, H]⟩ .f32) (b : FVec Ideal ⟨2, ![1, H]⟩ .f32)
    (h1 h2 h3 h4 : FTy.bf16.bits < FTy.f32.bits) (hbc : (⟨2, ![1, H]⟩ : Shape).Broadcasts ⟨2, ![R, H]⟩)
    (n : Fin R) (h : Fin H) :
    addf (addf (matmul d none (truncf .bf16 x h1) (truncf .bf16 W h2) (constant ⟨2, ![R, H]⟩ .f32 0x00000000#32))
          (matmul d none (truncf .bf16 y h3) (truncf .bf16 U h4) (constant ⟨2, ![R, H]⟩ .f32 0x00000000#32)))
        (broadcastTo ⟨2, ![R, H]⟩ b hbc) (ix2 n h)
      = pre x y W U b n h := by
  show (matmul d none (truncf .bf16 x h1) (truncf .bf16 W h2) (constant ⟨2, ![R, H]⟩ .f32 0x00000000#32) (ix2 n h)
      + matmul d none (truncf .bf16 y h3) (truncf .bf16 U h4) (constant ⟨2, ![R, H]⟩ .f32 0x00000000#32) (ix2 n h))
      + broadcastTo ⟨2, ![R, H]⟩ b hbc (ix2 n h) = _
  rw [matmul_plain_apply d hd, matmul_plain_apply d hd, broadcastTo_1b_ab_apply]
  rfl

/-- The bias row broadcast in both axes, at `(n, h)`. -/
theorem bias_row_apply {α : Type} (b : (⟨2, ![1, H]⟩ : Shape).Idx → α)
    (hb : (⟨2, ![1, H]⟩ : Shape).BroadcastsInDim ⟨2, ![R, H]⟩ ![0, 1]) (n : Fin R) (h : Fin H) :
    broadcastInDim ⟨2, ![R, H]⟩ ![0, 1] hb b (ix2 n h) = b (ix2 (0 : Fin 1) h) :=
  broadcastInDim_apply ![0, 1] hb b (ix2 n h) (ix2 (0 : Fin 1) h) (fun a => by
    match a with
    | ⟨0, _⟩ => show 0 = if (1 : ℕ) = 1 then 0 else _; rw [if_pos rfl]
    | ⟨1, _⟩ =>
      show h.val = if H = 1 then 0 else h.val
      split
      · have := h.isLt; omega
      · rfl)

/-- The host's spelling: two `dot_general`s, summed, plus the bias row broadcast in both axes. -/
theorem pre_host_apply (d : DotDims ⟨2, ![R, K]⟩ ⟨2, ![K, H]⟩ ⟨2, ![R, H]⟩) (hd : d = DotDims.plain R K H)
    (x y : FVec Ideal ⟨2, ![R, K]⟩ .f32) (W U : FVec Ideal ⟨2, ![K, H]⟩ .f32) (b : FVec Ideal ⟨2, ![1, H]⟩ .f32)
    (hb : (⟨2, ![1, H]⟩ : Shape).BroadcastsInDim ⟨2, ![R, H]⟩ ![0, 1]) (n : Fin R) (h : Fin H) :
    addf (addf (Host.dotGeneral d none x W) (Host.dotGeneral d none y U)) (broadcastInDim ⟨2, ![R, H]⟩ ![0, 1] hb b) (ix2 n h)
      = pre x y W U b n h := by
  show (Host.dotGeneral d none x W (ix2 n h) + Host.dotGeneral d none y U (ix2 n h))
      + broadcastInDim ⟨2, ![R, H]⟩ ![0, 1] hb b (ix2 n h) = _
  rw [dotGeneral_plain_apply d hd, dotGeneral_plain_apply d hd, bias_row_apply]
  rfl

/-! ## The update gate: the logistic function of the pre-activation -/

/-- A kernel's update gate at `(n, h)`. -/
theorem gate_kernel_apply (d : DotDims ⟨2, ![R, K]⟩ ⟨2, ![K, H]⟩ ⟨2, ![R, H]⟩) (hd : d = DotDims.plain R K H)
    (x y : FVec Ideal ⟨2, ![R, K]⟩ .f32) (W U : FVec Ideal ⟨2, ![K, H]⟩ .f32) (b : FVec Ideal ⟨2, ![1, H]⟩ .f32)
    (hsc : (⟨2, ![R, K]⟩ : Shape).ShapeCasts ⟨2, ![R, K]⟩)
    (h1 h2 h3 h4 : FTy.bf16.bits < FTy.f32.bits) (hbc : (⟨2, ![1, H]⟩ : Shape).Broadcasts ⟨2, ![R, H]⟩)
    (n : Fin R) (h : Fin H) :
    logistic (addf (addf (matmul d none (truncf .bf16 x h1) (truncf .bf16 W h2) (constant ⟨2, ![R, H]⟩ .f32 0x00000000#32))
          (matmul d none (truncf .bf16 (shapeCast ⟨2, ![R, K]⟩ y hsc) h3) (truncf .bf16 U h4) (constant ⟨2, ![R, H]⟩ .f32 0x00000000#32)))
        (broadcastTo ⟨2, ![R, H]⟩ b hbc)) (ix2 n h)
      = Ideal.logistic (pre x y W U b n h) := by
  rw [shapeCast_self, logistic_apply, pre_kernel_apply d hd]

/-- The host's update gate at `(n, h)`: one over one plus the exponential of the negated pre-activation. -/
theorem gate_host_apply (d : DotDims ⟨2, ![R, K]⟩ ⟨2, ![K, H]⟩ ⟨2, ![R, H]⟩) (hd : d = DotDims.plain R K H)
    (x y : FVec Ideal ⟨2, ![R, K]⟩ .f32) (W U : FVec Ideal ⟨2, ![K, H]⟩ .f32) (b : FVec Ideal ⟨2, ![1, H]⟩ .f32)
    (hb : (⟨2, ![1, H]⟩ : Shape).BroadcastsInDim ⟨2, ![R, H]⟩ ![0, 1])
    (hb1 hb2 : (⟨0, ![]⟩ : Shape).BroadcastsInDim ⟨2, ![R, H]⟩ ![]) (n : Fin R) (h : Fin H) :
    Host.divf (broadcastInDim ⟨2, ![R, H]⟩ ![] hb1 (constant (F := Ideal) ⟨0, ![]⟩ .f32 0x3F800000#32))
        (addf (broadcastInDim ⟨2, ![R, H]⟩ ![] hb2 (constant (F := Ideal) ⟨0, ![]⟩ .f32 0x3F800000#32))
          (Host.exp (Host.negf (addf (addf (Host.dotGeneral d none x W) (Host.dotGeneral d none y U))
            (broadcastInDim ⟨2, ![R, H]⟩ ![0, 1] hb b))))) (ix2 n h)
      = Ideal.logistic (pre x y W U b n h) := by
  rw [logistic_host_apply, pre_host_apply d hd]

/-! ## The reset gate applied to the row's own entry -/

/-- A kernel's gated entry at `(n, h)`: the logistic function of the pre-activation times the entry of `y'`. -/
theorem gated_kernel_apply (d : DotDims ⟨2, ![R, K]⟩ ⟨2, ![K, H]⟩ ⟨2, ![R, H]⟩) (hd : d = DotDims.plain R K H)
    (x y : FVec Ideal ⟨2, ![R, K]⟩ .f32) (W U : FVec Ideal ⟨2, ![K, H]⟩ .f32) (b : FVec Ideal ⟨2, ![1, H]⟩ .f32)
    (y' : FVec Ideal ⟨2, ![R, H]⟩ .f32)
    (hsc1 hsc2 : (⟨2, ![R, K]⟩ : Shape).ShapeCasts ⟨2, ![R, K]⟩) (hsc3 : (⟨2, ![R, H]⟩ : Shape).ShapeCasts ⟨2, ![R, H]⟩)
    (h1 h2 h3 h4 : FTy.bf16.bits < FTy.f32.bits) (hbc : (⟨2, ![1, H]⟩ : Shape).Broadcasts ⟨2, ![R, H]⟩)
    (n : Fin R) (h : Fin H) :
    mulf (logistic (addf (addf (matmul d none (truncf .bf16 (shapeCast ⟨2, ![R, K]⟩ x hsc1) h1) (truncf .bf16 W h2) (constant ⟨2, ![R, H]⟩ .f32 0x00000000#32))
          (matmul d none (truncf .bf16 (shapeCast ⟨2, ![R, K]⟩ y hsc2) h3) (truncf .bf16 U h4) (constant ⟨2, ![R, H]⟩ .f32 0x00000000#32)))
        (broadcastTo ⟨2, ![R, H]⟩ b hbc))) (shapeCast ⟨2, ![R, H]⟩ y' hsc3) (ix2 n h)
      = Ideal.logistic (pre x y W U b n h) * y' (ix2 n h) := by
  rw [shapeCast_self, shapeCast_self, shapeCast_self]
  show logistic _ (ix2 n h) * y' (ix2 n h) = _
  rw [logistic_apply, pre_kernel_apply d hd]

/-- The host's gated entry at `(n, h)`. -/
theorem gated_host_apply (d : DotDims ⟨2, ![R, K]⟩ ⟨2, ![K, H]⟩ ⟨2, ![R, H]⟩) (hd : d = DotDims.plain R K H)
    (x y : FVec Ideal ⟨2, ![R, K]⟩ .f32) (W U : FVec Ideal ⟨2, ![K, H]⟩ .f32) (b : FVec Ideal ⟨2, ![1, H]⟩ .f32)
    (y' : FVec Ideal ⟨2, ![R, H]⟩ .f32)
    (hb : (⟨2, ![1, H]⟩ : Shape).BroadcastsInDim ⟨2, ![R, H]⟩ ![0, 1])
    (hb1 hb2 : (⟨0, ![]⟩ : Shape).BroadcastsInDim ⟨2, ![R, H]⟩ ![]) (n : Fin R) (h : Fin H) :
    mulf (Host.divf (broadcastInDim ⟨2, ![R, H]⟩ ![] hb1 (constant (F := Ideal) ⟨0, ![]⟩ .f32 0x3F800000#32))
        (addf (broadcastInDim ⟨2, ![R, H]⟩ ![] hb2 (constant (F := Ideal) ⟨0, ![]⟩ .f32 0x3F800000#32))
          (Host.exp (Host.negf (addf (addf (Host.dotGeneral d none x W) (Host.dotGeneral d none y U))
            (broadcastInDim ⟨2, ![R, H]⟩ ![0, 1] hb b)))))) y' (ix2 n h)
      = Ideal.logistic (pre x y W U b n h) * y' (ix2 n h) := by
  show Host.divf _ _ (ix2 n h) * y' (ix2 n h) = _
  rw [gate_host_apply d hd]

/-! ## The new state: the mix of the summed state and the candidate -/

/-- A kernel's new state at `(n, h)`. -/
theorem mix_kernel_apply (d : DotDims ⟨2, ![R, K]⟩ ⟨2, ![K, H]⟩ ⟨2, ![R, H]⟩) (hd : d = DotDims.plain R K H)
    (x y : FVec Ideal ⟨2, ![R, K]⟩ .f32) (W U : FVec Ideal ⟨2, ![K, H]⟩ .f32) (b : FVec Ideal ⟨2, ![1, H]⟩ .f32)
    (z s : FVec Ideal ⟨2, ![R, H]⟩ .f32)
    (hsc : (⟨2, ![R, K]⟩ : Shape).ShapeCasts ⟨2, ![R, K]⟩) (hsz hss : (⟨2, ![R, H]⟩ : Shape).ShapeCasts ⟨2, ![R, H]⟩)
    (h1 h2 h3 h4 : FTy.bf16.bits < FTy.f32.bits) (hbc : (⟨2, ![1, H]⟩ : Shape).Broadcasts ⟨2, ![R, H]⟩)
    (n : Fin R) (h : Fin H) :
    addf (mulf (subf (broadcast ⟨2, ![R, H]⟩ (Scalar.ofBits (F := Ideal) .f32 0x3F800000#32)) (shapeCast ⟨2, ![R, H]⟩ z hsz))
          (shapeCast ⟨2, ![R, H]⟩ s hss))
        (mulf (shapeCast ⟨2, ![R, H]⟩ z hsz)
          (tanh (addf (addf (matmul d none (truncf .bf16 x h1) (truncf .bf16 W h2) (constant ⟨2, ![R, H]⟩ .f32 0x00000000#32))
              (matmul d none (truncf .bf16 (shapeCast ⟨2, ![R, K]⟩ y hsc) h3) (truncf .bf16 U h4) (constant ⟨2, ![R, H]⟩ .f32 0x00000000#32)))
            (broadcastTo ⟨2, ![R, H]⟩ b hbc)))) (ix2 n h)
      = mix (z (ix2 n h)) (s (ix2 n h)) (pre x y W U b n h) := by
  rw [shapeCast_self, shapeCast_self, shapeCast_self, ← pre_kernel_apply d hd x y W U b h1 h2 h3 h4 hbc n h]
  rfl

/-- The host's new state at `(n, h)`, over any update gate `z` and summed state `s`. -/
theorem mix_host_apply (d : DotDims ⟨2, ![R, K]⟩ ⟨2, ![K, H]⟩ ⟨2, ![R, H]⟩) (hd : d = DotDims.plain R K H)
    (x y : FVec Ideal ⟨2, ![R, K]⟩ .f32) (W U : FVec Ideal ⟨2, ![K, H]⟩ .f32) (b : FVec Ideal ⟨2, ![1, H]⟩ .f32)
    (z s : FVec Ideal ⟨2, ![R, H]⟩ .f32)
    (hb : (⟨2, ![1, H]⟩ : Shape).BroadcastsInDim ⟨2, ![R, H]⟩ ![0, 1])
    (hb1 : (⟨0, ![]⟩ : Shape).BroadcastsInDim ⟨2, ![R, H]⟩ ![]) (n : Fin R) (h : Fin H) :
    addf (mulf (subf (broadcastInDim ⟨2, ![R, H]⟩ ![] hb1 (constant (F := Ideal) ⟨0, ![]⟩ .f32 0x3F800000#32)) z) s)
        (mulf z (Host.tanh (addf (addf (Host.dotGeneral d none x W) (Host.dotGeneral d none y U))
          (broadcastInDim ⟨2, ![R, H]⟩ ![0, 1] hb b)))) (ix2 n h)
      = mix (z (ix2 n h)) (s (ix2 n h)) (pre x y W U b n h) := by
  rw [← pre_host_apply d hd x y W U b hb n h]
  rfl

/-! ## The three stages on whole arrays, in the host's spelling

  Each is the host's own expression; at `(n, h)` it is the gate of the pre-activation at `(n, h)`. -/

/-- The update gate of whole arrays: one over one plus the exponential of the negated pre-activation. -/
def gateArr (d : DotDims ⟨2, ![R, K]⟩ ⟨2, ![K, H]⟩ ⟨2, ![R, H]⟩)
    (hb : (⟨2, ![1, H]⟩ : Shape).BroadcastsInDim ⟨2, ![R, H]⟩ ![0, 1])
    (hb1 : (⟨0, ![]⟩ : Shape).BroadcastsInDim ⟨2, ![R, H]⟩ ![])
    (x y : FVec Ideal ⟨2, ![R, K]⟩ .f32) (W U : FVec Ideal ⟨2, ![K, H]⟩ .f32) (b : FVec Ideal ⟨2, ![1, H]⟩ .f32) :
    FVec Ideal ⟨2, ![R, H]⟩ .f32 :=
  Host.divf (broadcastInDim ⟨2, ![R, H]⟩ ![] hb1 (constant (F := Ideal) ⟨0, ![]⟩ .f32 0x3F800000#32))
    (addf (broadcastInDim ⟨2, ![R, H]⟩ ![] hb1 (constant (F := Ideal) ⟨0, ![]⟩ .f32 0x3F800000#32))
      (Host.exp (Host.negf (addf (addf (Host.dotGeneral d none x W) (Host.dotGeneral d none y U))
        (broadcastInDim ⟨2, ![R, H]⟩ ![0, 1] hb b)))))

theorem gateArr_apply (d : DotDims ⟨2, ![R, K]⟩ ⟨2, ![K, H]⟩ ⟨2, ![R, H]⟩) (hd : d = DotDims.plain R K H)
    (hb : (⟨2, ![1, H]⟩ : Shape).BroadcastsInDim ⟨2, ![R, H]⟩ ![0, 1])
    (hb1 : (⟨0, ![]⟩ : Shape).BroadcastsInDim ⟨2, ![R, H]⟩ ![])
    (x y : FVec Ideal ⟨2, ![R, K]⟩ .f32) (W U : FVec Ideal ⟨2, ![K, H]⟩ .f32) (b : FVec Ideal ⟨2, ![1, H]⟩ .f32)
    (n : Fin R) (h : Fin H) :
    gateArr d hb hb1 x y W U b (ix2 n h) = Ideal.logistic (pre x y W U b n h) :=
  gate_host_apply d hd x y W U b hb hb1 hb1 n h

/-- The reset gate applied, on whole arrays: the gate times `y'`, entry by entry. -/
def gatedArr (d : DotDims ⟨2, ![R, K]⟩ ⟨2, ![K, H]⟩ ⟨2, ![R, H]⟩)
    (hb : (⟨2, ![1, H]⟩ : Shape).BroadcastsInDim ⟨2, ![R, H]⟩ ![0, 1])
    (hb1 : (⟨0, ![]⟩ : Shape).BroadcastsInDim ⟨2, ![R, H]⟩ ![])
    (x y : FVec Ideal ⟨2, ![R, K]⟩ .f32) (W U : FVec Ideal ⟨2, ![K, H]⟩ .f32) (b : FVec Ideal ⟨2, ![1, H]⟩ .f32)
    (y' : FVec Ideal ⟨2, ![R, H]⟩ .f32) : FVec Ideal ⟨2, ![R, H]⟩ .f32 :=
  mulf (gateArr d hb hb1 x y W U b) y'

theorem gatedArr_apply (d : DotDims ⟨2, ![R, K]⟩ ⟨2, ![K, H]⟩ ⟨2, ![R, H]⟩) (hd : d = DotDims.plain R K H)
    (hb : (⟨2, ![1, H]⟩ : Shape).BroadcastsInDim ⟨2, ![R, H]⟩ ![0, 1])
    (hb1 : (⟨0, ![]⟩ : Shape).BroadcastsInDim ⟨2, ![R, H]⟩ ![])
    (x y : FVec Ideal ⟨2, ![R, K]⟩ .f32) (W U : FVec Ideal ⟨2, ![K, H]⟩ .f32) (b : FVec Ideal ⟨2, ![1, H]⟩ .f32)
    (y' : FVec Ideal ⟨2, ![R, H]⟩ .f32) (n : Fin R) (h : Fin H) :
    gatedArr d hb hb1 x y W U b y' (ix2 n h) = Ideal.logistic (pre x y W U b n h) * y' (ix2 n h) := by
  show gateArr d hb hb1 x y W U b (ix2 n h) * y' (ix2 n h) = _
  rw [gateArr_apply d hd]

/-- The new state of whole arrays: `(1 - z) · s + z · tanh` of the pre-activation. -/
def mixArr (d : DotDims ⟨2, ![R, K]⟩ ⟨2, ![K, H]⟩ ⟨2, ![R, H]⟩)
    (hb : (⟨2, ![1, H]⟩ : Shape).BroadcastsInDim ⟨2, ![R, H]⟩ ![0, 1])
    (hb1 : (⟨0, ![]⟩ : Shape).BroadcastsInDim ⟨2, ![R, H]⟩ ![])
    (x y : FVec Ideal ⟨2, ![R, K]⟩ .f32) (W U : FVec Ideal ⟨2, ![K, H]⟩ .f32) (b : FVec Ideal ⟨2, ![1, H]⟩ .f32)
    (z s : FVec Ideal ⟨2, ![R, H]⟩ .f32) : FVec Ideal ⟨2, ![R, H]⟩ .f32 :=
  addf (mulf (subf (broadcastInDim ⟨2, ![R, H]⟩ ![] hb1 (constant (F := Ideal) ⟨0, ![]⟩ .f32 0x3F800000#32)) z) s)
    (mulf z (Host.tanh (addf (addf (Host.dotGeneral d none x W) (Host.dotGeneral d none y U))
      (broadcastInDim ⟨2, ![R, H]⟩ ![0, 1] hb b))))

theorem mixArr_apply (d : DotDims ⟨2, ![R, K]⟩ ⟨2, ![K, H]⟩ ⟨2, ![R, H]⟩) (hd : d = DotDims.plain R K H)
    (hb : (⟨2, ![1, H]⟩ : Shape).BroadcastsInDim ⟨2, ![R, H]⟩ ![0, 1])
    (hb1 : (⟨0, ![]⟩ : Shape).BroadcastsInDim ⟨2, ![R, H]⟩ ![])
    (x y : FVec Ideal ⟨2, ![R, K]⟩ .f32) (W U : FVec Ideal ⟨2, ![K, H]⟩ .f32) (b : FVec Ideal ⟨2, ![1, H]⟩ .f32)
    (z s : FVec Ideal ⟨2, ![R, H]⟩ .f32) (n : Fin R) (h : Fin H) :
    mixArr d hb hb1 x y W U b z s (ix2 n h) = mix (z (ix2 n h)) (s (ix2 n h)) (pre x y W U b n h) :=
  mix_host_apply d hd x y W U b z s hb hb1 n h

end GatedRows

end
-- ==== Proof.GateValue.lean ====
/-
  The update-gate stage on whole arrays.

  The stage walks its grid of fifty points; at point `t` it reads rows `2000 t … 2000 t + 1999` of the node
  features and of the summed state, the two weight matrices and the bias row whole, and writes the same rows of the
  gate.  Entry `(p, q)` of the written block is the logistic function of the pre-activation of row `p` of the two
  row blocks, which is the pre-activation of row `2000 t + p` of the two arrays: so the block is the block of one
  whole-array function, the update gate in the host's spelling, and the fifty blocks tile the array.
  All of it is stated at any contents `V` the stage may be entered from.
-/
import proofs.«156432_j30382598652169_1_alg».proof.Proof.Gen.KernelIdeal.Frame
import proofs.«156432_j30382598652169_1_alg».proof.Proof.GatedRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.GateValue

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`: the logistic function of the pre-activation of row `p` of its two row
    blocks against column `q` of its two weight blocks, plus entry `q` of its bias block. -/
theorem pay_at (x0 x1 : Vec Ideal S2000x128 .f32) (x2 x3 : Vec Ideal S128x128 .f32) (x4 : Vec Ideal S1x128 .f32)
    (p : Fin 2000) (q : Fin 128) :
    k0_pay1 (F := Ideal) x0 x2 x1 x3 x4 (ix2 p q)
      = Ideal.logistic (GatedRows.pre (R := 2000) (K := 128) (H := 128) x0 x1 x2 x3 x4 p q) := by
  unfold k0_pay1
  exact GatedRows.gate_kernel_apply (R := 2000) (K := 128) (H := 128) dot_S2000x128_S128x128_S2000x128_1_0_0_1_n_n rfl
    x0 x1 x2 x3 x4 _ _ _ _ _ _ p q

/-- The printed index maps over the grid: the row-blocked windows sit at block row `t`, the weights and the bias at
    their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the node features' block at point `t` is row `2000 t + p` of the array. -/
theorem feat_row (c : Dev nD) (t : Fin cfg0.N) (p : Fin 2000) (k : Fin 128) (r : Fin 100000) (hr : r.val = t.val * 2000 + p.val) :
    (iblk0 V c 0 t : Vec Ideal S2000x128 .f32) (ix2 p k) = (V c main_arg1 : S100000x128.Idx → EReal) (ix2 r k) := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- Row `p` of the summed state's block at point `t` is row `2000 t + p` of the array. -/
theorem state_row (c : Dev nD) (t : Fin cfg0.N) (p : Fin 2000) (k : Fin 128) (r : Fin 100000) (hr : r.val = t.val * 2000 + p.val) :
    (iblk0 V c 1 t : Vec Ideal S2000x128 .f32) (ix2 p k) = (V c main_v16 : S100000x128.Idx → EReal) (ix2 r k) := by
  obtain ⟨-, -, e0, e1, -⟩ := idx_facts t
  unfold iblk0
  rw [View.read_apply]
  show V c main_v16 _ = V c main_v16 _
  congr 1
  funext a
  apply Fin.ext
  match a with
  | ⟨0, _⟩ => show win0_1.index t 0 * 2000 + 1 * p.val = r.val; rw [e0, hr]; omega
  | ⟨1, _⟩ => show win0_1.index t 1 * 128 + 1 * k.val = k.val; rw [e1]; omega

/-- The first weight matrix's block is the matrix. -/
theorem w_at (c : Dev nD) (t : Fin cfg0.N) (k h : Fin 128) :
    (iblk0 V c 2 t : Vec Ideal S128x128 .f32) (ix2 k h) = (V c main_arg5 : S128x128.Idx → EReal) (ix2 k h) := by
  obtain ⟨-, -, -, -, e0, e1, -⟩ := idx_facts t
  unfold iblk0
  rw [View.read_apply]
  show V c main_arg5 _ = V c main_arg5 _
  congr 1
  funext a
  apply Fin.ext
  match a with
  | ⟨0, _⟩ => show win0_2.index t 0 * 128 + 1 * k.val = k.val; rw [e0]; omega
  | ⟨1, _⟩ => show win0_2.index t 1 * 128 + 1 * h.val = h.val; rw [e1]; omega

/-- The second weight matrix's block is the matrix. -/
theorem u_at (c : Dev nD) (t : Fin cfg0.N) (k h : Fin 128) :
    (iblk0 V c 3 t : Vec Ideal S128x128 .f32) (ix2 k h) = (V c main_arg6 : S128x128.Idx → EReal) (ix2 k h) := by
  obtain ⟨-, -, -, -, -, -, e0, e1, -⟩ := idx_facts t
  unfold iblk0
  rw [View.read_apply]
  show V c main_arg6 _ = V c main_arg6 _
  congr 1
  funext a
  apply Fin.ext
  match a with
  | ⟨0, _⟩ => show win0_3.index t 0 * 128 + 1 * k.val = k.val; rw [e0]; omega
  | ⟨1, _⟩ => show win0_3.index t 1 * 128 + 1 * h.val = h.val; rw [e1]; omega

/-- The bias row's block is the row. -/
theorem b_at (c : Dev nD) (t : Fin cfg0.N) (h : Fin 128) :
    (iblk0 V c 4 t : Vec Ideal S1x128 .f32) (ix2 (0 : Fin 1) h) = (V c main_arg7 : S1x128.Idx → EReal) (ix2 (0 : Fin 1) h) := by
  obtain ⟨-, -, -, -, -, -, -, -, e0, e1, -⟩ := idx_facts t
  unfold iblk0
  rw [View.read_apply]
  show V c main_arg7 _ = V c main_arg7 _
  congr 1
  funext a
  apply Fin.ext
  match a with
  | ⟨0, _⟩ => show win0_4.index t 0 * 1 + 1 * 0 = 0; rw [e0]
  | ⟨1, _⟩ => show win0_4.index t 1 * 128 + 1 * h.val = h.val; rw [e1]; omega

variable (d : DotDims S100000x128 S128x128 S100000x128) (hd : d = DotDims.plain 100000 128 128)
  (hb : S1x128.BroadcastsInDim S100000x128 ![0, 1]) (hb1 : S_.BroadcastsInDim S100000x128 ![])

/-- The update gate of the arrays the stage is entered with, in the host's spelling. -/
abbrev gateOf (c : Dev nD) : S100000x128.Idx → EReal :=
  GatedRows.gateArr (R := 100000) (K := 128) (H := 128) d hb hb1 (V c main_arg1) (V c main_v16) (V c main_arg5) (V c main_arg6) (V c main_arg7)

include hd in
/-- What point `t` writes back is block `t` of the update gate of the arrays. -/
theorem flushed_eq (c : Dev nD) (t : Fin cfg0.N) :
    (dat0 V c).flushed 5 t = ((cfg0.win 5).blk t).view.read (Elt Ideal) (gateOf V d hb hb1 c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, e0, e1⟩ := idx_facts t
  have hN : cfg0.N = 50 := N_0
  have hr : t.val * 2000 + p.val < 100000 := by have := t.isLt; have := p.isLt; omega
  have hemb : ((cfg0.win 5).blk t).view.emb (ix2 p q) = (ix2 (⟨t.val * 2000 + p.val, hr⟩ : Fin 100000) q : S100000x128.Idx) := by
    funext a
    apply Fin.ext
    match a with
    | ⟨0, _⟩ => show win0_5.index t 0 * 2000 + 1 * p.val = t.val * 2000 + p.val; rw [e0]; omega
    | ⟨1, _⟩ => show win0_5.index t 1 * 128 + 1 * q.val = q.val; rw [e1]; omega
  rw [View.read_apply, hemb]
  refine (pay_at (iblk0 V c 0 t) (iblk0 V c 1 t) (iblk0 V c 2 t) (iblk0 V c 3 t) (iblk0 V c 4 t) p q).trans ?_
  refine Eq.trans ?_ (GatedRows.gateArr_apply (R := 100000) (K := 128) (H := 128) d hd hb hb1 (V c main_arg1) (V c main_v16) (V c main_arg5) (V c main_arg6) (V c main_arg7) ⟨t.val * 2000 + p.val, hr⟩ q).symm
  refine congrArg Ideal.logistic ?_
  exact GatedRows.pre_congr _ _ _ _ _ _ _ _ _ _ p ⟨t.val * 2000 + p.val, hr⟩ q
    (fun k => feat_row V c t p k _ rfl) (fun k => state_row V c t p k _ rfl)
    (fun k => w_at V c t k q) (fun k => u_at V c t k q) (b_at V c t q)

/-- An index of the gate's array is in point `t`'s block iff its row lies in the block's two thousand rows. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v17).slice (win0_5.rect t)).set ↔ _
  rw [View.set_slice_whole, Rect.mem_set_unit]
  exact Iff.rfl

include hd in
/-- THE GATE'S ARRAY after the stage: the update gate of the arrays the stage was entered with. -/
theorem final (c : Dev nD) : (dat0 V c).arrAt 5 cfg0.N = gateOf V d hb hb1 c :=
  (dat0 V c).arrAt_eq_of_cover 5 (gateOf V d hb hb1 c) (fun t _ => flushed_eq V d hd hb hb1 c t) fun i => by
    have hi0 : (i 0).val < 100000 := (i 0).isLt
    have hi1 : (i 1).val < 128 := (i 1).isLt
    have hN : cfg0.N = 50 := N_0
    have ht : (i 0).val / 2000 < cfg0.N := by rw [hN]; omega
    refine ⟨⟨(i 0).val / 2000, ht⟩, flush0_5 _, ?_⟩
    rw [mem_blk]
    obtain ⟨-, -, -, -, -, -, -, -, -, -, e0, e1⟩ := idx_facts ⟨(i 0).val / 2000, ht⟩
    intro a
    match a with
    | ⟨0, _⟩ =>
      show win0_5.index ⟨(i 0).val / 2000, ht⟩ (0 : Fin 2) * 2000 ≤ (i 0).val ∧ (i 0).val < win0_5.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win0_5.index ⟨(i 0).val / 2000, ht⟩ (1 : Fin 2) * 128 ≤ (i 1).val ∧ (i 1).val < win0_5.index ⟨(i 0).val / 2000, ht⟩ (1 : Fin 2) * 128 + 128
      rw [e1]; omega

end Cert.KernelIdeal.GateValue

end
-- ==== Proof.EdgeValue.lean ====
/-
  The reset-gate stage on whole arrays.

  The stage walks its grid of four hundred points; at point `t` it reads rows `4000 t … 4000 t + 3999` of the
  two gathered edge arrays (the destination features and the state, each at the edge's source node), the two weight
  matrices and the bias row whole, and writes the same rows of the gated state.  Entry `(p, q)` of the written
  block is the logistic function of the pre-activation of row `p` of the two row blocks, times entry `(p, q)` of
  the gathered state's block: the same function of row `4000 t + p` of the arrays.  So the block is the block of one
  whole-array function, the gated state in the host's spelling, and the four hundred blocks tile the array.
  All of it is stated at any contents `V` the stage may be entered from.
-/
import proofs.«156432_j30382598652169_1_alg».proof.Proof.Gen.KernelIdeal.Frame
import proofs.«156432_j30382598652169_1_alg».proof.Proof.GatedRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeValue

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`: the logistic function of the pre-activation of row `p` of its two row
    blocks, times entry `(p, q)` of the second loaded copy of the state's block. -/
theorem pay_at (x0 x1 : Vec Ideal S4000x128 .f32) (x2 x3 : Vec Ideal S128x128 .f32) (x4 : Vec Ideal S1x128 .f32)
    (x1' : Vec Ideal S4000x128 .f32) (p : Fin 4000) (q : Fin 128) :
    k1_pay1 (F := Ideal) x0 x2 x1 x3 x4 x1' (ix2 p q)
      = Ideal.logistic (GatedRows.pre (R := 4000) (K := 128) (H := 128) x0 x1 x2 x3 x4 p q) * x1' (ix2 p q) := by
  unfold k1_pay1
  exact GatedRows.gated_kernel_apply (R := 4000) (K := 128) (H := 128) dot_S4000x128_S128x128_S4000x128_1_0_0_1_n_n rfl
    x0 x1 x2 x3 x4 x1' _ _ _ _ _ _ _ _ p q

/-- The printed index maps over the grid: the row-blocked windows sit at block row `t`, the weights and the bias at
    their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the gathered destination features' block at point `t` is row `4000 t + p` of the array. -/
theorem feat_row (c : Dev nD) (t : Fin cfg1.N) (p : Fin 4000) (k : Fin 128) (r : Fin 1600000) (hr : r.val = t.val * 4000 + p.val) :
    (iblk1 V c 0 t : Vec Ideal S4000x128 .f32) (ix2 p k) = (V c main_v13 : S1600000x128.Idx → EReal) (ix2 r k) := by
  obtain ⟨e0, e1, -⟩ := idx_facts t
  unfold iblk1
  rw [View.read_apply]
  show V c main_v13 _ = V c main_v13 _
  congr 1
  funext a
  apply Fin.ext
  match a with
  | ⟨0, _⟩ => show win1_0.index t 0 * 4000 + 1 * p.val = r.val; rw [e0, hr]; omega
  | ⟨1, _⟩ => show win1_0.index t 1 * 128 + 1 * k.val = k.val; rw [e1]; omega

/-- Row `p` of the gathered state's block at point `t` is row `4000 t + p` of the array. -/
theorem state_row (c : Dev nD) (t : Fin cfg1.N) (p : Fin 4000) (k : Fin 128) (r : Fin 1600000) (hr : r.val = t.val * 4000 + p.val) :
    (iblk1 V c 1 t : Vec Ideal S4000x128 .f32) (ix2 p k) = (V c main_v6 : S1600000x128.Idx → EReal) (ix2 r k) := by
  obtain ⟨-, -, e0, e1, -⟩ := idx_facts t
  unfold iblk1
  rw [View.read_apply]
  show V c main_v6 _ = V c main_v6 _
  congr 1
  funext a
  apply Fin.ext
  match a with
  | ⟨0, _⟩ => show win1_1.index t 0 * 4000 + 1 * p.val = r.val; rw [e0, hr]; omega
  | ⟨1, _⟩ => show win1_1.index t 1 * 128 + 1 * k.val = k.val; rw [e1]; omega

/-- The first weight matrix's block is the matrix. -/
theorem w_at (c : Dev nD) (t : Fin cfg1.N) (k h : Fin 128) :
    (iblk1 V c 2 t : Vec Ideal S128x128 .f32) (ix2 k h) = (V c main_arg8 : S128x128.Idx → EReal) (ix2 k h) := by
  obtain ⟨-, -, -, -, e0, e1, -⟩ := idx_facts t
  unfold iblk1
  rw [View.read_apply]
  show V c main_arg8 _ = V c main_arg8 _
  congr 1
  funext a
  apply Fin.ext
  match a with
  | ⟨0, _⟩ => show win1_2.index t 0 * 128 + 1 * k.val = k.val; rw [e0]; omega
  | ⟨1, _⟩ => show win1_2.index t 1 * 128 + 1 * h.val = h.val; rw [e1]; omega

/-- The second weight matrix's block is the matrix. -/
theorem u_at (c : Dev nD) (t : Fin cfg1.N) (k h : Fin 128) :
    (iblk1 V c 3 t : Vec Ideal S128x128 .f32) (ix2 k h) = (V c main_arg9 : S128x128.Idx → EReal) (ix2 k h) := by
  obtain ⟨-, -, -, -, -, -, e0, e1, -⟩ := idx_facts t
  unfold iblk1
  rw [View.read_apply]
  show V c main_arg9 _ = V c main_arg9 _
  congr 1
  funext a
  apply Fin.ext
  match a with
  | ⟨0, _⟩ => show win1_3.index t 0 * 128 + 1 * k.val = k.val; rw [e0]; omega
  | ⟨1, _⟩ => show win1_3.index t 1 * 128 + 1 * h.val = h.val; rw [e1]; omega

/-- The bias row's block is the row. -/
theorem b_at (c : Dev nD) (t : Fin cfg1.N) (h : Fin 128) :
    (iblk1 V c 4 t : Vec Ideal S1x128 .f32) (ix2 (0 : Fin 1) h) = (V c main_arg10 : S1x128.Idx → EReal) (ix2 (0 : Fin 1) h) := by
  obtain ⟨-, -, -, -, -, -, -, -, e0, e1, -⟩ := idx_facts t
  unfold iblk1
  rw [View.read_apply]
  show V c main_arg10 _ = V c main_arg10 _
  congr 1
  funext a
  apply Fin.ext
  match a with
  | ⟨0, _⟩ => show win1_4.index t 0 * 1 + 1 * 0 = 0; rw [e0]
  | ⟨1, _⟩ => show win1_4.index t 1 * 128 + 1 * h.val = h.val; rw [e1]; omega

variable (d : DotDims S1600000x128 S128x128 S1600000x128) (hd : d = DotDims.plain 1600000 128 128)
  (hb : S1x128.BroadcastsInDim S1600000x128 ![0, 1]) (hb1 : S_.BroadcastsInDim S1600000x128 ![])

/-- The gated state of the arrays the stage is entered with, in the host's spelling. -/
abbrev gatedOf (c : Dev nD) : S1600000x128.Idx → EReal :=
  GatedRows.gatedArr (R := 1600000) (K := 128) (H := 128) d hb hb1 (V c main_v13) (V c main_v6) (V c main_arg8) (V c main_arg9) (V c main_arg10) (V c main_v6)

include hd in
/-- What point `t` writes back is block `t` of the gated state of the arrays. -/
theorem flushed_eq (c : Dev nD) (t : Fin cfg1.N) :
    (dat1 V c).flushed 5 t = ((cfg1.win 5).blk t).view.read (Elt Ideal) (gatedOf V d hb hb1 c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  obtain ⟨-, -, -, -, -, -, -, -, -, -, e0, e1⟩ := idx_facts t
  have hN : cfg1.N = 400 := N_1
  have hr : t.val * 4000 + p.val < 1600000 := by have := t.isLt; have := p.isLt; omega
  have hemb : ((cfg1.win 5).blk t).view.emb (ix2 p q) = (ix2 (⟨t.val * 4000 + p.val, hr⟩ : Fin 1600000) q : S1600000x128.Idx) := by
    funext a
    apply Fin.ext
    match a with
    | ⟨0, _⟩ => show win1_5.index t 0 * 4000 + 1 * p.val = t.val * 4000 + p.val; rw [e0]; omega
    | ⟨1, _⟩ => show win1_5.index t 1 * 128 + 1 * q.val = q.val; rw [e1]; omega
  rw [View.read_apply, hemb]
  refine (pay_at (iblk1 V c 0 t) (iblk1 V c 1 t) (iblk1 V c 2 t) (iblk1 V c 3 t) (iblk1 V c 4 t) (iblk1 V c 1 t) p q).trans ?_
  refine Eq.trans ?_ (GatedRows.gatedArr_apply (R := 1600000) (K := 128) (H := 128) d hd hb hb1 (V c main_v13) (V c main_v6) (V c main_arg8) (V c main_arg9) (V c main_arg10) (V c main_v6) ⟨t.val * 4000 + p.val, hr⟩ q).symm
  refine congrArg₂ (fun a b : EReal => a * b) (congrArg Ideal.logistic ?_) (state_row V c t p q _ rfl)
  exact GatedRows.pre_congr _ _ _ _ _ _ _ _ _ _ p ⟨t.val * 4000 + p.val, hr⟩ q
    (fun k => feat_row V c t p k _ rfl) (fun k => state_row V c t p k _ rfl)
    (fun k => w_at V c t k q) (fun k => u_at V c t k q) (b_at V c t q)

/-- An index of the gated state's array is in point `t`'s block iff its row lies in the block's four thousand rows. -/
theorem mem_blk (t : Fin cfg1.N) (i : S1600000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v18).slice (win1_5.rect t)).set ↔ _
  rw [View.set_slice_whole, Rect.mem_set_unit]
  exact Iff.rfl

include hd in
/-- THE GATED STATE'S ARRAY after the stage: the gated state of the arrays the stage was entered with. -/
theorem final (c : Dev nD) : (dat1 V c).arrAt 5 cfg1.N = gatedOf V d hb hb1 c :=
  (dat1 V c).arrAt_eq_of_cover 5 (gatedOf V d hb hb1 c) (fun t _ => flushed_eq V d hd hb hb1 c t) fun i => by
    have hi0 : (i 0).val < 1600000 := (i 0).isLt
    have hi1 : (i 1).val < 128 := (i 1).isLt
    have hN : cfg1.N = 400 := N_1
    have ht : (i 0).val / 4000 < cfg1.N := by rw [hN]; omega
    refine ⟨⟨(i 0).val / 4000, ht⟩, flush1_5 _, ?_⟩
    rw [mem_blk]
    obtain ⟨-, -, -, -, -, -, -, -, -, -, e0, e1⟩ := idx_facts ⟨(i 0).val / 4000, ht⟩
    intro a
    match a with
    | ⟨0, _⟩ =>
      show win1_5.index ⟨(i 0).val / 4000, ht⟩ (0 : Fin 2) * 4000 ≤ (i 0).val ∧ (i 0).val < win1_5.index ⟨(i 0).val / 4000, ht⟩ (0 : Fin 2) * 4000 + 4000
      rw [e0]; show (i 0).val / 4000 * 4000 ≤ (i 0).val ∧ (i 0).val < (i 0).val / 4000 * 4000 + 4000; omega
    | ⟨1, _⟩ =>
      show win1_5.index ⟨(i 0).val / 4000, ht⟩ (1 : Fin 2) * 128 ≤ (i 1).val ∧ (i 1).val < win1_5.index ⟨(i 0).val / 4000, ht⟩ (1 : Fin 2) * 128 + 128
      rw [e1]; omega

end Cert.KernelIdeal.EdgeValue

end
-- ==== Proof.MixValue.lean ====
/-
  The new-state stage on whole arrays.

  The stage walks its grid of fifty points; at point `t` it reads rows `2000 t … 2000 t + 1999` of four node
  arrays (the node features, the summed gated state, the update gate, the summed state), the two weight matrices
  and the bias row whole, and writes the same rows of the new state.  Entry `(p, q)` of the written block is
  `(1 - z) · s + z · tanh a` with `z`, `s` the gate's and the summed state's entries `(p, q)` and `a` the
  pre-activation of row `p` of the features' and the summed gated state's blocks: the same function of row
  `2000 t + p` of the arrays.  So the block is the block of one whole-array function, the new state in the host's
  spelling, and the fifty blocks tile the array.  All of it is stated at any contents `V` the stage may be entered
  from.
-/
import proofs.«156432_j30382598652169_1_alg».proof.Proof.Gen.KernelIdeal.Frame
import proofs.«156432_j30382598652169_1_alg».proof.Proof.GatedRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MixValue

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`: the mix of the gate's and the summed state's entries `(p, q)` with the
    pre-activation of row `p` of the features' and the summed gated state's blocks. -/
theorem pay_at (x0 x1 x2 x3 : Vec Ideal S2000x128 .f32) (x4 x5 : Vec Ideal S128x128 .f32) (x6 : Vec Ideal S1x128 .f32)
    (p : Fin 2000) (q : Fin 128) :
    k2_pay1 (F := Ideal) x0 x4 x1 x5 x6 x2 x3 (ix2 p q)
      = GatedRows.mix (x2 (ix2 p q)) (x3 (ix2 p q)) (GatedRows.pre (R := 2000) (K := 128) (H := 128) x0 x1 x4 x5 x6 p q) := by
  unfold k2_pay1
  exact GatedRows.mix_kernel_apply (R := 2000) (K := 128) (H := 128) dot_S2000x128_S128x128_S2000x128_1_0_0_1_n_n rfl
    x0 x1 x4 x5 x6 x2 x3 _ _ _ _ _ _ _ _ p q

/-- The printed index maps over the grid: the four row-blocked inputs and the output sit at block row `t`, the
    weights and the bias at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of the node features' block at point `t` is row `2000 t + p` of the array. -/
theorem feat_row (c : Dev nD) (t : Fin cfg2.N) (p : Fin 2000) (k : Fin 128) (r : Fin 100000) (hr : r.val = t.val * 2000 + p.val) :
    (iblk2 V c 0 t : Vec Ideal S2000x128 .f32) (ix2 p k) = (V c main_arg1 : S100000x128.Idx → EReal) (ix2 r k) := by
  obtain ⟨e0, e1, -⟩ := idx_facts t
  unfold iblk2
  rw [View.read_apply]
  show V c main_arg1 _ = V c main_arg1 _
  congr 1
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- Row `p` of the summed gated state's block at point `t` is row `2000 t + p` of the array. -/
theorem gated_row (c : Dev nD) (t : Fin cfg2.N) (p : Fin 2000) (k : Fin 128) (r : Fin 100000) (hr : r.val = t.val * 2000 + p.val) :
    (iblk2 V c 1 t : Vec Ideal S2000x128 .f32) (ix2 p k) = (V c main_v21 : S100000x128.Idx → EReal) (ix2 r k) := by
  obtain ⟨-, -, e0, e1, -⟩ := idx_facts t
  unfold iblk2
  rw [View.read_apply]
  show V c main_v21 _ = V c main_v21 _
  congr 1
  funext a
  apply Fin.ext
  match a with
  | ⟨0, _⟩ => show win2_1.index t 0 * 2000 + 1 * p.val = r.val; rw [e0, hr]; omega
  | ⟨1, _⟩ => show win2_1.index t 1 * 128 + 1 * k.val = k.val; rw [e1]; omega

/-- Row `p` of the update gate's block at point `t` is row `2000 t + p` of the array. -/
theorem gate_row (c : Dev nD) (t : Fin cfg2.N) (p : Fin 2000) (k : Fin 128) (r : Fin 100000) (hr : r.val = t.val * 2000 + p.val) :
    (iblk2 V c 2 t : Vec Ideal S2000x128 .f32) (ix2 p k) = (V c main_v17 : S100000x128.Idx → EReal) (ix2 r k) := by
  obtain ⟨-, -, -, -, e0, e1, -⟩ := idx_facts t
  unfold iblk2
  rw [View.read_apply]
  show V c main_v17 _ = V c main_v17 _
  congr 1
  funext a
  apply Fin.ext
  match a with
  | ⟨0, _⟩ => show win2_2.index t 0 * 2000 + 1 * p.val = r.val; rw [e0, hr]; omega
  | ⟨1, _⟩ => show win2_2.index t 1 * 128 + 1 * k.val = k.val; rw [e1]; omega

/-- Row `p` of the summed state's block at point `t` is row `2000 t + p` of the array. -/
theorem state_row (c : Dev nD) (t : Fin cfg2.N) (p : Fin 2000) (k : Fin 128) (r : Fin 100000) (hr : r.val = t.val * 2000 + p.val) :
    (iblk2 V c 3 t : Vec Ideal S2000x128 .f32) (ix2 p k) = (V c main_v16 : S100000x128.Idx → EReal) (ix2 r k) := by
  obtain ⟨-, -, -, -, -, -, e0, e1, -⟩ := idx_facts t
  unfold iblk2
  rw [View.read_apply]
  show V c main_v16 _ = V c main_v16 _
  congr 1
  funext a
  apply Fin.ext
  match a with
  | ⟨0, _⟩ => show win2_3.index t 0 * 2000 + 1 * p.val = r.val; rw [e0, hr]; omega
  | ⟨1, _⟩ => show win2_3.index t 1 * 128 + 1 * k.val = k.val; rw [e1]; omega

/-- The first weight matrix's block is the matrix. -/
theorem w_at (c : Dev nD) (t : Fin cfg2.N) (k h : Fin 128) :
    (iblk2 V c 4 t : Vec Ideal S128x128 .f32) (ix2 k h) = (V c main_arg11 : S128x128.Idx → EReal) (ix2 k h) := by
  obtain ⟨-, -, -, -, -, -, -, -, e0, e1, -⟩ := idx_facts t
  unfold iblk2
  rw [View.read_apply]
  show V c main_arg11 _ = V c main_arg11 _
  congr 1
  funext a
  apply Fin.ext
  match a with
  | ⟨0, _⟩ => show win2_4.index t 0 * 128 + 1 * k.val = k.val; rw [e0]; omega
  | ⟨1, _⟩ => show win2_4.index t 1 * 128 + 1 * h.val = h.val; rw [e1]; omega

/-- The second weight matrix's block is the matrix. -/
theorem u_at (c : Dev nD) (t : Fin cfg2.N) (k h : Fin 128) :
    (iblk2 V c 5 t : Vec Ideal S128x128 .f32) (ix2 k h) = (V c main_arg12 : S128x128.Idx → EReal) (ix2 k h) := by
  obtain ⟨-, -, -, -, -, -, -, -, -, -, e0, e1, -⟩ := idx_facts t
  unfold iblk2
  rw [View.read_apply]
  show V c main_arg12 _ = V c main_arg12 _
  congr 1
  funext a
  apply Fin.ext
  match a with
  | ⟨0, _⟩ => show win2_5.index t 0 * 128 + 1 * k.val = k.val; rw [e0]; omega
  | ⟨1, _⟩ => show win2_5.index t 1 * 128 + 1 * h.val = h.val; rw [e1]; omega

/-- The bias row's block is the row. -/
theorem b_at (c : Dev nD) (t : Fin cfg2.N) (h : Fin 128) :
    (iblk2 V c 6 t : Vec Ideal S1x128 .f32) (ix2 (0 : Fin 1) h) = (V c main_arg13 : S1x128.Idx → EReal) (ix2 (0 : Fin 1) h) := by
  obtain ⟨-, -, -, -, -, -, -, -, -, -, -, -, e0, e1, -⟩ := idx_facts t
  unfold iblk2
  rw [View.read_apply]
  show V c main_arg13 _ = V c main_arg13 _
  congr 1
  funext a
  apply Fin.ext
  match a with
  | ⟨0, _⟩ => show win2_6.index t 0 * 1 + 1 * 0 = 0; rw [e0]
  | ⟨1, _⟩ => show win2_6.index t 1 * 128 + 1 * h.val = h.val; rw [e1]; omega

variable (d : DotDims S100000x128 S128x128 S100000x128) (hd : d = DotDims.plain 100000 128 128)
  (hb : S1x128.BroadcastsInDim S100000x128 ![0, 1]) (hb1 : S_.BroadcastsInDim S100000x128 ![])

/-- The new state of the arrays the stage is entered with, in the host's spelling. -/
abbrev mixOf (c : Dev nD) : S100000x128.Idx → EReal :=
  GatedRows.mixArr (R := 100000) (K := 128) (H := 128) d hb hb1 (V c main_arg1) (V c main_v21) (V c main_arg11) (V c main_arg12) (V c main_arg13) (V c main_v17) (V c main_v16)

include hd in
/-- What point `t` writes back is block `t` of the new state of the arrays. -/
theorem flushed_eq (c : Dev nD) (t : Fin cfg2.N) :
    (dat2 V c).flushed 7 t = ((cfg2.win 7).blk t).view.read (Elt Ideal) (mixOf V d hb hb1 c) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, -, -, -, -, e0, e1⟩ := idx_facts t
  have hN : cfg2.N = 50 := N_2
  have hr : t.val * 2000 + p.val < 100000 := by have := t.isLt; have := p.isLt; omega
  have hemb : ((cfg2.win 7).blk t).view.emb (ix2 p q) = (ix2 (⟨t.val * 2000 + p.val, hr⟩ : Fin 100000) q : S100000x128.Idx) := by
    funext a
    apply Fin.ext
    match a with
    | ⟨0, _⟩ => show win2_7.index t 0 * 2000 + 1 * p.val = t.val * 2000 + p.val; rw [e0]; omega
    | ⟨1, _⟩ => show win2_7.index t 1 * 128 + 1 * q.val = q.val; rw [e1]; omega
  rw [View.read_apply, hemb]
  refine (pay_at (iblk2 V c 0 t) (iblk2 V c 1 t) (iblk2 V c 2 t) (iblk2 V c 3 t) (iblk2 V c 4 t) (iblk2 V c 5 t) (iblk2 V c 6 t) p q).trans ?_
  refine Eq.trans ?_ (GatedRows.mixArr_apply (R := 100000) (K := 128) (H := 128) d hd hb hb1 (V c main_arg1) (V c main_v21) (V c main_arg11) (V c main_arg12) (V c main_arg13) (V c main_v17) (V c main_v16) ⟨t.val * 2000 + p.val, hr⟩ q).symm
  rw [gate_row V c t p q ⟨t.val * 2000 + p.val, hr⟩ rfl, state_row V c t p q ⟨t.val * 2000 + p.val, hr⟩ rfl]
  refine congrArg (GatedRows.mix _ _) ?_
  exact GatedRows.pre_congr _ _ _ _ _ _ _ _ _ _ p ⟨t.val * 2000 + p.val, hr⟩ q
    (fun k => feat_row V c t p k ⟨t.val * 2000 + p.val, hr⟩ rfl) (fun k => gated_row V c t p k ⟨t.val * 2000 + p.val, hr⟩ rfl)
    (fun k => w_at V c t k q) (fun k => u_at V c t k q) (b_at V c t q)

/-- An index of the new state's array is in point `t`'s block iff its row lies in the block's two thousand rows. -/
theorem mem_blk (t : Fin cfg2.N) (i : S100000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v22).slice (win2_7.rect t)).set ↔ _
  rw [View.set_slice_whole, Rect.mem_set_unit]
  exact Iff.rfl

include hd in
/-- THE NEW STATE'S ARRAY after the stage: the new state of the arrays the stage was entered with. -/
theorem final (c : Dev nD) : (dat2 V c).arrAt 7 cfg2.N = mixOf V d hb hb1 c :=
  (dat2 V c).arrAt_eq_of_cover 7 (mixOf V d hb hb1 c) (fun t _ => flushed_eq V d hd hb hb1 c t) fun i => by
    have hi0 : (i 0).val < 100000 := (i 0).isLt
    have hi1 : (i 1).val < 128 := (i 1).isLt
    have hN : cfg2.N = 50 := N_2
    have ht : (i 0).val / 2000 < cfg2.N := by rw [hN]; omega
    refine ⟨⟨(i 0).val / 2000, ht⟩, flush2_7 _, ?_⟩
    rw [mem_blk]
    obtain ⟨-, -, -, -, -, -, -, -, -, -, -, -, -, -, e0, e1⟩ := idx_facts ⟨(i 0).val / 2000, ht⟩
    intro a
    match a with
    | ⟨0, _⟩ =>
      show win2_7.index ⟨(i 0).val / 2000, ht⟩ (0 : Fin 2) * 2000 ≤ (i 0).val ∧ (i 0).val < win2_7.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win2_7.index ⟨(i 0).val / 2000, ht⟩ (1 : Fin 2) * 128 ≤ (i 1).val ∧ (i 1).val < win2_7.index ⟨(i 0).val / 2000, ht⟩ (1 : Fin 2) * 128 + 128
      rw [e1]; omega

end Cert.KernelIdeal.MixValue

end
-- ==== Proof.RefStages.lean ====
/-
  The reference program's stages as the three whole-array functions.

  The reference sums the gathered state into the nodes, forms the update gate from the node features and that
  sum, gathers the destination features and the state again along the edges, forms the gated state per edge, sums
  it into the nodes, and mixes the summed state with the candidate under the update gate.  Its three dense stages
  are, term for term, the update gate, the gated state and the new state of Proof/GatedRows.lean at the host's own
  records; the gathers and the two node sums are carried as the named stages they are, never opened.  The state is
  gathered twice by one expression.
-/
import proofs.«156432_j30382598652169_1_alg».proof.Proof.Gen.ReferenceIdeal.Run
import proofs.«156432_j30382598652169_1_alg».proof.Proof.Gen.ReferenceIdeal.Read
import proofs.«156432_j30382598652169_1_alg».proof.Proof.GatedRows

noncomputable section

open Idealize.ShloMosaic Idealize.ShloMosaic.TcCoe Idealize.SL.Sem

namespace Cert.ReferenceIdeal.Stages

open Cert.ReferenceIdeal Cert.ReferenceIdeal.Read

variable (x0 x1 x2 : (⟨S100000x128, .f32⟩ : BufTy).Contents (Elt Ideal)) (x3 x4 : (⟨S1600000, .i32⟩ : BufTy).Contents (Elt Ideal))
  (x5 x6 : (⟨S128x128, .f32⟩ : BufTy).Contents (Elt Ideal)) (x7 : (⟨S1x128, .f32⟩ : BufTy).Contents (Elt Ideal))
  (x8 x9 : (⟨S128x128, .f32⟩ : BufTy).Contents (Elt Ideal)) (x10 : (⟨S1x128, .f32⟩ : BufTy).Contents (Elt Ideal))
  (x11 x12 : (⟨S128x128, .f32⟩ : BufTy).Contents (Elt Ideal)) (x13 : (⟨S1x128, .f32⟩ : BufTy).Contents (Elt Ideal))

/-- The node-side matrix products are plain ones. -/
theorem node_dot_plain : dot_S100000x128_S128x128_S100000x128_1_0_0_1_n_n = DotDims.plain 100000 128 128 := rfl

/-- The edge-side matrix products are plain ones. -/
theorem edge_dot_plain : dot_S1600000x128_S128x128_S1600000x128_1_0_0_1_n_n = DotDims.plain 1600000 128 128 := rfl

/-- The state gathered along the edges for the reset gate is the state gathered for the node sum. -/
theorem gather_again : val_main_v27 (F := Ideal) x0 x3 = val_main_v6 (F := Ideal) x0 x3 := rfl

/-- The reference's update gate is the update gate of the node features and the summed state. -/
theorem gate_eq :
    val_main_v20 (F := Ideal) x0 x1 x3 x4 x5 x6 x7
      = GatedRows.gateArr (R := 100000) (K := 128) (H := 128) dot_S100000x128_S128x128_S100000x128_1_0_0_1_n_n
          Gen.bcast_S1x128_S100000x128_0_1 Gen.bcast_S_S100000x128 x1 (val_main_v9 (F := Ideal) x0 x3 x4) x5 x6 x7 := rfl

/-- The reference's gated state is the gated state of the two gathered arrays. -/
theorem gated_eq :
    val_main_v46 (F := Ideal) x0 x2 x3 x8 x9 x10
      = GatedRows.gatedArr (R := 1600000) (K := 128) (H := 128) dot_S1600000x128_S128x128_S1600000x128_1_0_0_1_n_n
          Gen.bcast_S1x128_S1600000x128_0_1 Gen.bcast_S_S1600000x128 (val_main_v34 (F := Ideal) x2 x3) (val_main_v6 (F := Ideal) x0 x3)
          x8 x9 x10 (val_main_v6 (F := Ideal) x0 x3) := rfl

/-- The reference's result is the new state of the node features, the summed gated state, the update gate and the
    summed state. -/
theorem result_eq :
    val_main_v60 (F := Ideal) x0 x1 x2 x3 x4 x5 x6 x7 x8 x9 x10 x11 x12 x13
      = GatedRows.mixArr (R := 100000) (K := 128) (H := 128) dot_S100000x128_S128x128_S100000x128_1_0_0_1_n_n
          Gen.bcast_S1x128_S100000x128_0_1 Gen.bcast_S_S100000x128 x1 (val_main_v49 (F := Ideal) x0 x2 x3 x4 x8 x9 x10) x11 x12 x13
          (val_main_v20 (F := Ideal) x0 x1 x3 x4 x5 x6 x7) (val_main_v9 (F := Ideal) x0 x3 x4) := rfl

end Cert.ReferenceIdeal.Stages

end
-- ==== Proof.KernelValue.lean ====
/-
  The kernel program's result as the reference's expression.

  The program's buffer contents at each boundary are a fold from the launch memory: a host stretch (the two
  gathers along the edges and the node sum of the gathered state), the update-gate stage, the reset-gate stage, a
  host stretch (the node sum of the gated state), the new-state stage.  Read backwards from the result buffer:
  the new-state stage leaves the new state of what it was entered with; of those arrays the summed gated state is
  the second host stretch's sum of the reset-gate stage's output, the update gate is the first stage's output, and
  the summed state and the gathered arrays are the first host stretch's; the arguments are never written.  Each
  stage's output is its whole-array function (Proof/GateValue.lean, Proof/EdgeValue.lean, Proof/MixValue.lean), and
  the whole-array functions composed in this order are the reference's stages (Proof/RefStages.lean): the result
  buffer ends holding the reference's own result expression of the launch contents of the arguments.
-/
import proofs.«156432_j30382598652169_1_alg».proof.Proof.Gen.KernelIdeal.Frame
import proofs.«156432_j30382598652169_1_alg».proof.Proof.GateValue
import proofs.«156432_j30382598652169_1_alg».proof.Proof.EdgeValue
import proofs.«156432_j30382598652169_1_alg».proof.Proof.MixValue
import proofs.«156432_j30382598652169_1_alg».proof.Proof.RefStages
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-! ## The arguments' launch contents, by what they are -/

abbrev state (c : Dev nD) := m ((c : Thread nD τ).loc main_arg0)
abbrev nodeFeat (c : Dev nD) := m ((c : Thread nD τ).loc main_arg1)
abbrev dstFeat (c : Dev nD) := m ((c : Thread nD τ).loc main_arg2)
abbrev srcIdx (c : Dev nD) := m ((c : Thread nD τ).loc main_arg3)
abbrev dstIdx (c : Dev nD) := m ((c : Thread nD τ).loc main_arg4)
abbrev wz (c : Dev nD) := m ((c : Thread nD τ).loc main_arg5)
abbrev uz (c : Dev nD) := m ((c : Thread nD τ).loc main_arg6)
abbrev bz (c : Dev nD) := m ((c : Thread nD τ).loc main_arg7)
abbrev wr (c : Dev nD) := m ((c : Thread nD τ).loc main_arg8)
abbrev ur (c : Dev nD) := m ((c : Thread nD τ).loc main_arg9)
abbrev br (c : Dev nD) := m ((c : Thread nD τ).loc main_arg10)
abbrev wc (c : Dev nD) := m ((c : Thread nD τ).loc main_arg11)
abbrev uc (c : Dev nD) := m ((c : Thread nD τ).loc main_arg12)
abbrev bc (c : Dev nD) := m ((c : Thread nD τ).loc main_arg13)

/-- A buffer no operation of a host stretch writes keeps its contents across the stretch. -/
local macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first host stretch -/

theorem a1_nodeFeat (c : Dev nD) : W1 m ρ c (Proc.devRef .tc main_arg1) = nodeFeat m c := by
  refine Eq.trans (?_ : _ = W0 m ρ c (Proc.devRef .tc main_arg1)) rfl; host_keeps hostOps0
theorem a1_dstIdx (c : Dev nD) : W1 m ρ c (Proc.devRef .tc main_arg4) = dstIdx m c := by
  refine Eq.trans (?_ : _ = W0 m ρ c (Proc.devRef .tc main_arg4)) rfl; host_keeps hostOps0
theorem a1_wz (c : Dev nD) : W1 m ρ c (Proc.devRef .tc main_arg5) = wz m c := by
  refine Eq.trans (?_ : _ = W0 m ρ c (Proc.devRef .tc main_arg5)) rfl; host_keeps hostOps0
theorem a1_uz (c : Dev nD) : W1 m ρ c (Proc.devRef .tc main_arg6) = uz m c := by
  refine Eq.trans (?_ : _ = W0 m ρ c (Proc.devRef .tc main_arg6)) rfl; host_keeps hostOps0
theorem a1_bz (c : Dev nD) : W1 m ρ c (Proc.devRef .tc main_arg7) = bz m c := by
  refine Eq.trans (?_ : _ = W0 m ρ c (Proc.devRef .tc main_arg7)) rfl; host_keeps hostOps0
theorem a1_wr (c : Dev nD) : W1 m ρ c (Proc.devRef .tc main_arg8) = wr m c := by
  refine Eq.trans (?_ : _ = W0 m ρ c (Proc.devRef .tc main_arg8)) rfl; host_keeps hostOps0
theorem a1_ur (c : Dev nD) : W1 m ρ c (Proc.devRef .tc main_arg9) = ur m c := by
  refine Eq.trans (?_ : _ = W0 m ρ c (Proc.devRef .tc main_arg9)) rfl; host_keeps hostOps0
theorem a1_br (c : Dev nD) : W1 m ρ c (Proc.devRef .tc main_arg10) = br m c := by
  refine Eq.trans (?_ : _ = W0 m ρ c (Proc.devRef .tc main_arg10)) rfl; host_keeps hostOps0
theorem a1_wc (c : Dev nD) : W1 m ρ c (Proc.devRef .tc main_arg11) = wc m c := by
  refine Eq.trans (?_ : _ = W0 m ρ c (Proc.devRef .tc main_arg11)) rfl; host_keeps hostOps0
theorem a1_uc (c : Dev nD) : W1 m ρ c (Proc.devRef .tc main_arg12) = uc m c := by
  refine Eq.trans (?_ : _ = W0 m ρ c (Proc.devRef .tc main_arg12)) rfl; host_keeps hostOps0
theorem a1_bc (c : Dev nD) : W1 m ρ c (Proc.devRef .tc main_arg13) = bc m c := by
  refine Eq.trans (?_ : _ = W0 m ρ c (Proc.devRef .tc main_arg13)) rfl; host_keeps hostOps0

/-- The state gathered at each edge's source node: the reference's stage of that name. -/
theorem a1_stateSrc (c : Dev nD) :
    W1 m ρ c (Proc.devRef .tc main_v6) = Cert.ReferenceIdeal.Read.val_main_v6 (F := Ideal) (state m c) (srcIdx m c) := by
  show StableHlo.after hostOps0 (W0 m ρ c) (Proc.devRef .tc main_v6) = _
  dsimp only [hostOps0]
  after_results
  rfl

/-- The destination features gathered at each edge's source node: the reference's stage of that name. -/
theorem a1_dstFeatSrc (c : Dev nD) :
    W1 m ρ c (Proc.devRef .tc main_v13) = Cert.ReferenceIdeal.Read.val_main_v34 (F := Ideal) (dstFeat m c) (srcIdx m c) := by
  show StableHlo.after hostOps0 (W0 m ρ c) (Proc.devRef .tc main_v13) = _
  dsimp only [hostOps0]
  after_results
  rfl

/-- The gathered state summed into each edge's destination node: the reference's stage of that name. -/
theorem a1_stateSum (c : Dev nD) :
    W1 m ρ c (Proc.devRef .tc main_v16) = Cert.ReferenceIdeal.Read.val_main_v9 (F := Ideal) (state m c) (srcIdx m c) (dstIdx m c) := by
  show StableHlo.after hostOps0 (W0 m ρ c) (Proc.devRef .tc main_v16) = _
  dsimp only [hostOps0]
  after_results
  rfl

/-! ## After the update-gate stage -/

/-- The update gate's buffer holds the reference's update gate. -/
theorem a2_gate (c : Dev nD) :
    W2 m ρ c (Proc.devRef .tc main_v17)
      = Cert.ReferenceIdeal.Read.val_main_v20 (F := Ideal) (state m c) (nodeFeat m c) (srcIdx m c) (dstIdx m c) (wz m c) (uz m c) (bz m c) := by
  refine (W2_arr m ρ c 5).trans ?_
  refine (GateValue.final (V1 m ρ) Cert.ReferenceIdeal.dot_S100000x128_S128x128_S100000x128_1_0_0_1_n_n Cert.ReferenceIdeal.Stages.node_dot_plain
    Cert.ReferenceIdeal.Gen.bcast_S1x128_S100000x128_0_1 Cert.ReferenceIdeal.Gen.bcast_S_S100000x128 c).trans ?_
  refine Eq.trans ?_ (Cert.ReferenceIdeal.Stages.gate_eq (state m c) (nodeFeat m c) (srcIdx m c) (dstIdx m c) (wz m c) (uz m c) (bz m c)).symm
  show GatedRows.gateArr _ _ _ (W1 m ρ c (Proc.devRef .tc main_arg1)) (W1 m ρ c (Proc.devRef .tc main_v16))
      (W1 m ρ c (Proc.devRef .tc main_arg5)) (W1 m ρ c (Proc.devRef .tc main_arg6)) (W1 m ρ c (Proc.devRef .tc main_arg7)) = _
  rw [a1_nodeFeat, a1_stateSum, a1_wz, a1_uz, a1_bz]

theorem a2_nodeFeat (c : Dev nD) : W2 m ρ c (Proc.devRef .tc main_arg1) = nodeFeat m c :=
  ((W2_arr m ρ c 0).trans (((dat0 (V1 m ρ) c).arrAt_in 0 rfl _).trans (A_eq0 (V1 m ρ) c 0))).trans (a1_nodeFeat m ρ c)
theorem a2_stateSum (c : Dev nD) :
    W2 m ρ c (Proc.devRef .tc main_v16) = Cert.ReferenceIdeal.Read.val_main_v9 (F := Ideal) (state m c) (srcIdx m c) (dstIdx m c) :=
  ((W2_arr m ρ c 1).trans (((dat0 (V1 m ρ) c).arrAt_in 1 rfl _).trans (A_eq0 (V1 m ρ) c 1))).trans (a1_stateSum m ρ c)
theorem a2_stateSrc (c : Dev nD) :
    W2 m ρ c (Proc.devRef .tc main_v6) = Cert.ReferenceIdeal.Read.val_main_v6 (F := Ideal) (state m c) (srcIdx m c) :=
  (W2_of_ne m ρ c main_v6 (by decide)).trans (a1_stateSrc m ρ c)
theorem a2_dstFeatSrc (c : Dev nD) :
    W2 m ρ c (Proc.devRef .tc main_v13) = Cert.ReferenceIdeal.Read.val_main_v34 (F := Ideal) (dstFeat m c) (srcIdx m c) :=
  (W2_of_ne m ρ c main_v13 (by decide)).trans (a1_dstFeatSrc m ρ c)
theorem a2_dstIdx (c : Dev nD) : W2 m ρ c (Proc.devRef .tc main_arg4) = dstIdx m c :=
  (W2_of_ne m ρ c main_arg4 (by decide)).trans (a1_dstIdx m ρ c)
theorem a2_wr (c : Dev nD) : W2 m ρ c (Proc.devRef .tc main_arg8) = wr m c :=
  (W2_of_ne m ρ c main_arg8 (by decide)).trans (a1_wr m ρ c)
theorem a2_ur (c : Dev nD) : W2 m ρ c (Proc.devRef .tc main_arg9) = ur m c :=
  (W2_of_ne m ρ c main_arg9 (by decide)).trans (a1_ur m ρ c)
theorem a2_br (c : Dev nD) : W2 m ρ c (Proc.devRef .tc main_arg10) = br m c :=
  (W2_of_ne m ρ c main_arg10 (by decide)).trans (a1_br m ρ c)
theorem a2_wc (c : Dev nD) : W2 m ρ c (Proc.devRef .tc main_arg11) = wc m c :=
  (W2_of_ne m ρ c main_arg11 (by decide)).trans (a1_wc m ρ c)
theorem a2_uc (c : Dev nD) : W2 m ρ c (Proc.devRef .tc main_arg12) = uc m c :=
  (W2_of_ne m ρ c main_arg12 (by decide)).trans (a1_uc m ρ c)
theorem a2_bc (c : Dev nD) : W2 m ρ c (Proc.devRef .tc main_arg13) = bc m c :=
  (W2_of_ne m ρ c main_arg13 (by decide)).trans (a1_bc m ρ c)

/-! ## After the reset-gate stage -/

/-- The gated state's buffer holds the reference's gated state. -/
theorem a3_gated (c : Dev nD) :
    W3 m ρ c (Proc.devRef .tc main_v18)
      = Cert.ReferenceIdeal.Read.val_main_v46 (F := Ideal) (state m c) (dstFeat m c) (srcIdx m c) (wr m c) (ur m c) (br m c) := by
  refine (W3_arr m ρ c 5).trans ?_
  refine (EdgeValue.final (V2 m ρ) Cert.ReferenceIdeal.dot_S1600000x128_S128x128_S1600000x128_1_0_0_1_n_n Cert.ReferenceIdeal.Stages.edge_dot_plain
    Cert.ReferenceIdeal.Gen.bcast_S1x128_S1600000x128_0_1 Cert.ReferenceIdeal.Gen.bcast_S_S1600000x128 c).trans ?_
  refine Eq.trans ?_ (Cert.ReferenceIdeal.Stages.gated_eq (state m c) (dstFeat m c) (srcIdx m c) (wr m c) (ur m c) (br m c)).symm
  show GatedRows.gatedArr _ _ _ (W2 m ρ c (Proc.devRef .tc main_v13)) (W2 m ρ c (Proc.devRef .tc main_v6))
      (W2 m ρ c (Proc.devRef .tc main_arg8)) (W2 m ρ c (Proc.devRef .tc main_arg9)) (W2 m ρ c (Proc.devRef .tc main_arg10))
      (W2 m ρ c (Proc.devRef .tc main_v6)) = _
  rw [a2_dstFeatSrc, a2_stateSrc, a2_wr, a2_ur, a2_br]

theorem a3_gate (c : Dev nD) :
    W3 m ρ c (Proc.devRef .tc main_v17)
      = Cert.ReferenceIdeal.Read.val_main_v20 (F := Ideal) (state m c) (nodeFeat m c) (srcIdx m c) (dstIdx m c) (wz m c) (uz m c) (bz m c) :=
  (W3_of_ne m ρ c main_v17 (by decide)).trans (a2_gate m ρ c)
theorem a3_stateSum (c : Dev nD) :
    W3 m ρ c (Proc.devRef .tc main_v16) = Cert.ReferenceIdeal.Read.val_main_v9 (F := Ideal) (state m c) (srcIdx m c) (dstIdx m c) :=
  (W3_of_ne m ρ c main_v16 (by decide)).trans (a2_stateSum m ρ c)
theorem a3_nodeFeat (c : Dev nD) : W3 m ρ c (Proc.devRef .tc main_arg1) = nodeFeat m c :=
  (W3_of_ne m ρ c main_arg1 (by decide)).trans (a2_nodeFeat m ρ c)
theorem a3_dstIdx (c : Dev nD) : W3 m ρ c (Proc.devRef .tc main_arg4) = dstIdx m c :=
  (W3_of_ne m ρ c main_arg4 (by decide)).trans (a2_dstIdx m ρ c)
theorem a3_wc (c : Dev nD) : W3 m ρ c (Proc.devRef .tc main_arg11) = wc m c :=
  (W3_of_ne m ρ c main_arg11 (by decide)).trans (a2_wc m ρ c)
theorem a3_uc (c : Dev nD) : W3 m ρ c (Proc.devRef .tc main_arg12) = uc m c :=
  (W3_of_ne m ρ c main_arg12 (by decide)).trans (a2_uc m ρ c)
theorem a3_bc (c : Dev nD) : W3 m ρ c (Proc.devRef .tc main_arg13) = bc m c :=
  (W3_of_ne m ρ c main_arg13 (by decide)).trans (a2_bc m ρ c)

/-! ## After the second host stretch -/

/-- The gated state summed into each edge's destination node: the reference's stage of that name. -/
theorem a4_gatedSum (c : Dev nD) :
    W4 m ρ c (Proc.devRef .tc main_v21)
      = Cert.ReferenceIdeal.Read.val_main_v49 (F := Ideal) (state m c) (dstFeat m c) (srcIdx m c) (dstIdx m c) (wr m c) (ur m c) (br m c) := by
  show StableHlo.after hostOps2 (W3 m ρ c) (Proc.devRef .tc main_v21) = _
  dsimp only [hostOps2]
  after_results
  rw [a3_dstIdx, a3_gated]
  rfl

theorem a4_gate (c : Dev nD) :
    W4 m ρ c (Proc.devRef .tc main_v17)
      = Cert.ReferenceIdeal.Read.val_main_v20 (F := Ideal) (state m c) (nodeFeat m c) (srcIdx m c) (dstIdx m c) (wz m c) (uz m c) (bz m c) := by
  refine Eq.trans (?_ : _ = W3 m ρ c (Proc.devRef .tc main_v17)) (a3_gate m ρ c); host_keeps hostOps2
theorem a4_stateSum (c : Dev nD) :
    W4 m ρ c (Proc.devRef .tc main_v16) = Cert.ReferenceIdeal.Read.val_main_v9 (F := Ideal) (state m c) (srcIdx m c) (dstIdx m c) := by
  refine Eq.trans (?_ : _ = W3 m ρ c (Proc.devRef .tc main_v16)) (a3_stateSum m ρ c); host_keeps hostOps2
theorem a4_nodeFeat (c : Dev nD) : W4 m ρ c (Proc.devRef .tc main_arg1) = nodeFeat m c := by
  refine Eq.trans (?_ : _ = W3 m ρ c (Proc.devRef .tc main_arg1)) (a3_nodeFeat m ρ c); host_keeps hostOps2
theorem a4_wc (c : Dev nD) : W4 m ρ c (Proc.devRef .tc main_arg11) = wc m c := by
  refine Eq.trans (?_ : _ = W3 m ρ c (Proc.devRef .tc main_arg11)) (a3_wc m ρ c); host_keeps hostOps2
theorem a4_uc (c : Dev nD) : W4 m ρ c (Proc.devRef .tc main_arg12) = uc m c := by
  refine Eq.trans (?_ : _ = W3 m ρ c (Proc.devRef .tc main_arg12)) (a3_uc m ρ c); host_keeps hostOps2
theorem a4_bc (c : Dev nD) : W4 m ρ c (Proc.devRef .tc main_arg13) = bc m c := by
  refine Eq.trans (?_ : _ = W3 m ρ c (Proc.devRef .tc main_arg13)) (a3_bc m ρ c); host_keeps hostOps2

/-! ## After the new-state stage -/

/-- THE RESULT BUFFER at the last boundary holds the reference's result expression of the arguments' launch
    contents. -/
theorem result (c : Dev nD) :
    W5 m ρ c (Proc.devRef .tc main_v22)
      = Cert.ReferenceIdeal.Read.val_main_v60 (F := Ideal) (state m c) (nodeFeat m c) (dstFeat m c) (srcIdx m c) (dstIdx m c)
          (wz m c) (uz m c) (bz m c) (wr m c) (ur m c) (br m c) (wc m c) (uc m c) (bc m c) := by
  refine (W5_arr m ρ c 7).trans ?_
  refine (MixValue.final (V4 m ρ) Cert.ReferenceIdeal.dot_S100000x128_S128x128_S100000x128_1_0_0_1_n_n Cert.ReferenceIdeal.Stages.node_dot_plain
    Cert.ReferenceIdeal.Gen.bcast_S1x128_S100000x128_0_1 Cert.ReferenceIdeal.Gen.bcast_S_S100000x128 c).trans ?_
  refine Eq.trans ?_ (Cert.ReferenceIdeal.Stages.result_eq (state m c) (nodeFeat m c) (dstFeat m c) (srcIdx m c) (dstIdx m c)
    (wz m c) (uz m c) (bz m c) (wr m c) (ur m c) (br m c) (wc m c) (uc m c) (bc m c)).symm
  show GatedRows.mixArr _ _ _ (W4 m ρ c (Proc.devRef .tc main_arg1)) (W4 m ρ c (Proc.devRef .tc main_v21))
      (W4 m ρ c (Proc.devRef .tc main_arg11)) (W4 m ρ c (Proc.devRef .tc main_arg12)) (W4 m ρ c (Proc.devRef .tc main_arg13))
      (W4 m ρ c (Proc.devRef .tc main_v17)) (W4 m ρ c (Proc.devRef .tc main_v16)) = _
  rw [a4_nodeFeat, a4_gatedSum, a4_wc, a4_uc, a4_bc, a4_gate, a4_stateSum]

end Cert.KernelIdeal.Result

end
-- ==== Proof.lean ====
/-
  A gated recurrent update on a graph, in three dense stages between node sums, against its one-expression
  reference: equal results over the extended reals.

  For every node `v` the update forms `s(v)`, the sum of the state `h` over the edges into `v` (each edge
  contributing the state at its source), the update gate `z = σ(f·Wz + s·Uz + bz)` of the node's features `f` and
  that sum, for every edge the reset gate `r = σ(g·Wr + h_src·Ur + br)` of the destination features and the state
  at its source, the sum over the edges into `v` of `r · h_src`, the candidate `tanh(f·W + (Σ r·h_src)·U + b)`,
  and the new state `(1 - z) · s + z · tanh(…)`.

  The kernel program computes the two gathers and the two node sums on the host exactly as the reference does, and
  each of the three dense stages in a grid of row blocks: products of narrowed operands into zero accumulators
  (narrowing is the identity at the ideal values), the bias row broadcast down the rows, the logistic function as
  one operation where the reference spells `1 / (1 + exp(-x))`.  Entry `(n, h)` of each stage reads row `n` of its
  row-major operands only, so each written block is the block of the stage's whole-array function
  (Proof/GatedRows.lean; Proof/GateValue.lean, Proof/EdgeValue.lean, Proof/MixValue.lean), the blocks tile the
  array, and the buffers at the program's boundaries, read back from the result (Proof/KernelValue.lean over the
  run of Proof/KernelRun.lean), compose to the reference's own result expression (Proof/RefStages.lean).  No law
  of the extended reals beyond the definitions is used, and the precondition is never opened: both sides are the
  same sums of the same products in the same grouping.
-/
import proofs.«156432_j30382598652169_1_alg».proof.Defs
import proofs.«156432_j30382598652169_1_alg».proof.Proof.Gen.Kernel
import proofs.«156432_j30382598652169_1_alg».proof.Proof.Gen.Kernel.Skeleton
import proofs.«156432_j30382598652169_1_alg».proof.Proof.Gen.Kernel.Launch
import proofs.«156432_j30382598652169_1_alg».proof.Proof.Gen.Kernel.Points
import proofs.«156432_j30382598652169_1_alg».proof.Proof.Gen.Kernel.Frame
import proofs.«156432_j30382598652169_1_alg».proof.Proof.Gen.KernelIdeal
import proofs.«156432_j30382598652169_1_alg».proof.Proof.Gen.KernelIdeal.Skeleton
import proofs.«156432_j30382598652169_1_alg».proof.Proof.Gen.KernelIdeal.Launch
import proofs.«156432_j30382598652169_1_alg».proof.Proof.Gen.KernelIdeal.Points
import proofs.«156432_j30382598652169_1_alg».proof.Proof.Gen.KernelIdeal.Frame
import proofs.«156432_j30382598652169_1_alg».proof.Proof.Gen.ReferenceIdeal
import proofs.«156432_j30382598652169_1_alg».proof.Proof.Gen.ReferenceIdeal.Run
import proofs.«156432_j30382598652169_1_alg».proof.Proof.Gen.ReferenceIdeal.Read
import proofs.«156432_j30382598652169_1_alg».proof.Proof.Gen.Pre_finite_inputs
import proofs.«156432_j30382598652169_1_alg».proof.Proof.KernelRun
import proofs.«156432_j30382598652169_1_alg».proof.Proof.KernelValue
import proofs.«156432_j30382598652169_1_alg».proof.Proof.RefStages
import Idealize.ShloMosaic.Adequacy
import Idealize.ShloMosaic.Init

noncomputable section

namespace Cert.Proof

open Idealize.ShloMosaic Idealize.SL.Sem

/-- The printed kernel program runs to its end and leaves its arguments as launched. -/
theorem frame_kernel : Cert.frame_Kernel := fun m ρ _ => Cert.Kernel.Gen.frame m ρ

/-- So does the program read at the ideal values. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- From memories agreeing on the arguments both programs end with the new state of the same launch contents:
    the kernel program's result buffer at the last boundary's contents, which is the reference's result
    expression, and the reference's at that expression. -/
theorem algebraic : Cert.algebraic_KernelIdeal_ReferenceIdeal := by
  intro m ρ m' ρ' _ hagree
  refine ⟨_, Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v60_eq m' c).trans ?_
  obtain ⟨e0, e1, e2, e3, e4, e5, e6, e7, e8, e9, e10, e11, e12, e13⟩ := hagree c
  rw [e0, e1, e2, e3, e4, e5, e6, e7, e8, e9, e10, e11, e12, e13]
  exact (Cert.KernelIdeal.Result.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
